-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1600000x32 .f32) (main_arg2 : IVec S1600000 32) (main_arg3 : IVec S1600000 32) (main_arg4 : FVec F S96x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S128x64 : Shape := ⟨2, ![128, 64]⟩
abbrev S_ : Shape := ⟨0, ![]⟩
abbrev S1600000x1 : Shape := ⟨2, ![1600000, 1]⟩
abbrev S1600000x64 : Shape := ⟨2, ![1600000, 64]⟩
abbrev S64x64 : Shape := ⟨2, ![64, 64]⟩
abbrev S32x64 : Shape := ⟨2, ![32, 64]⟩
abbrev S1x64 : Shape := ⟨2, ![1, 64]⟩
abbrev S16000x64 : Shape := ⟨2, ![16000, 64]⟩
abbrev S16000x32 : Shape := ⟨2, ![16000, 32]⟩
abbrev S100000 : Shape := ⟨1, ![100000]⟩
abbrev S100000x1 : Shape := ⟨2, ![100000, 1]⟩
abbrev S10000x64 : Shape := ⟨2, ![10000, 64]⟩

abbrev nBuf : Space → Nat
  | .hbm => 41
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S64x64, .f32⟩
  | .hbm, ⟨18, _⟩ => ⟨S32x64, .f32⟩
  | .hbm, ⟨19, _⟩ => ⟨S1x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S100000x64, .f32⟩
  | .local _ .vmem, ⟨0, _⟩ => ⟨S16000x64, .f32⟩
  | .local _ .vmem, ⟨1, _⟩ => ⟨S16000x64, .f32⟩
  | .local _ .vmem, ⟨2, _⟩ => ⟨S16000x32, .f32⟩
  | .local _ .vmem, ⟨3, _⟩ => ⟨S16000x32, .f32⟩
  | .local _ .vmem, ⟨4, _⟩ => ⟨S64x64, .f32⟩
  | .local _ .vmem, ⟨5, _⟩ => ⟨S32x64, .f32⟩
  | .local _ .vmem, ⟨6, _⟩ => ⟨S1x64, .f32⟩
  | .local _ .vmem, ⟨7, _⟩ => ⟨S16000x64, .f32⟩
  | .local _ .vmem, ⟨8, _⟩ => ⟨S16000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S96x64_S64x64_0_0 : S96x64.Slices ![0, 0] S64x64
  slices_S96x64_S32x64_64_0 : S96x64.Slices ![64, 0] S32x64
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S16000x32_S16000x32_0_0 : ∀ a, (![0, 0] : Fin 2 → Nat) a + S16000x32.size a ≤ S16000x32.size a
  h_S16000x32 : 0 < S16000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S16000x64_S64x64_S16000x64_1_0_0_1_n_n_wf : DotDims.WF S16000x64 S64x64 S16000x64 [1] [0] [0] [1] [] []
  dot_S16000x32_S32x64_S16000x64_1_0_0_1_n_n_wf : DotDims.WF S16000x32 S32x64 S16000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S1600000x64.size a
  hwx0_5 : ∀ i : grid0.Coords, EltTy.bits .f32 = 32 ∨ (Rect.block (s := S1600000x64) S16000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S1600000 : Shape := ⟨1, ![1600000]⟩
abbrev S96x64 : Shape := ⟨2, ![96, 64]⟩
abbrev S64 : Shape := ⟨1, ![64]⟩
abbrev S128x64 : Shape := ⟨2, ![128, 64]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S96x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x96, .f32⟩
  | .hbm, ⟨18, _⟩ => ⟨S1600000x64, .f32⟩
  | .hbm, ⟨19, _⟩ => ⟨S1x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x128, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Bodies.lean ====
/-
  The two kernel bodies read at one entry, at the ideal values.

  The message body stores, at row p and column q of its block,
      (Σ_{k<64} x[p,k]·w₁[k,q] + Σ_{k<32} e[p,k]·w₂[k,q]) + b[0,q],
  two matrix products into the zero accumulator, added, plus the one-row bias laid along every row; the changes of
  float format are the identity on the extended reals.
  The update body stores max((Σ_{k<64} x[p,k]·w₁[k,q] + Σ_{k<64} h[p,k]·w₂[k,q]) + b[0,q], 0).
-/
import proofs.«182251_j56057913147664_1_alg».proof.Proof.Gen.KernelIdeal.Skeleton
import proofs.«182251_j56057913147664_1_alg».proof.Proof.LibDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-- The message body's stored value at row `p`, column `q` of its block. -/
theorem msg_apply (x : Vec Ideal S16000x64 .f32) (e : Vec Ideal S16000x32 .f32) (w1 : Vec Ideal S64x64 .f32)
    (w2 : Vec Ideal S32x64 .f32) (b : Vec Ideal S1x64 .f32) (p : Fin 16000) (q : Fin 64) :
    k0_pay1 (F := Ideal) x e w1 w2 b (ix2 p q)
      = (∑ k : Fin 64, x (ix2 p k) * w1 (ix2 k q) + ∑ k : Fin 32, e (ix2 p k) * w2 (ix2 k q)) + b (ix2 (0 : Fin 1) q) := by
  unfold k0_pay1
  rw [addf_apply, addf_apply, Cert.LibDot.matmul_10_zero_apply _ rfl rfl rfl rfl rfl rfl,
    Cert.LibDot.matmul_10_zero_apply _ rfl rfl rfl rfl rfl rfl, broadcastTo_1b_ab_apply]
  simp only [shapeCast_self, truncf_apply]

/-- The update body's stored value at row `p`, column `q` of its block. -/
theorem apply_apply (x : Vec Ideal S10000x64 .f32) (h : Vec Ideal S10000x64 .f32) (w1 : Vec Ideal S64x64 .f32)
    (w2 : Vec Ideal S64x64 .f32) (b : Vec Ideal S1x64 .f32) (p : Fin 10000) (q : Fin 64) :
    k1_pay1 (F := Ideal) x h w1 w2 b (ix2 p q)
      = max ((∑ k : Fin 64, x (ix2 p k) * w1 (ix2 k q) + ∑ k : Fin 64, h (ix2 p k) * w2 (ix2 k q)) + b (ix2 (0 : Fin 1) q))
          (Ideal.ofBits .f32 0x00000000#32) := by
  unfold k1_pay1
  rw [maximumf_apply, addf_apply, addf_apply, Cert.LibDot.matmul_10_zero_apply _ rfl rfl rfl rfl rfl rfl,
    Cert.LibDot.matmul_10_zero_apply _ rfl rfl rfl rfl rfl rfl, broadcastTo_1b_ab_apply]
  simp only [shapeCast_self, truncf_apply]
  rfl

end Cert.KernelIdeal.Bodies

end
-- ==== Proof.Spec.lean ====
/-
  What the program computes, as pure functions of its arrays (the idealized kernel's shapes and dimension records).

  gathered  : rows of the node features named by the source indices (an index below zero first moved up by 100000);
  msgs      : message (P, q) = (Σ_{k<64} g[P,k]·w₁[k,q] + Σ_{k<32} e[P,k]·w₂[k,q]) + b[0,q];
  meanOf    : per destination node, the sum of the messages over their number (a number below one replaced by one);
  upd       : entry (P, q) = max((Σ_{k<64} x[P,k]·w₁[k,q] + Σ_{k<64} h[P,k]·w₂[k,q]) + b[0,q], 0);
  result    : their composition on the eight arguments, the two weight matrices cut into their row blocks and each
              bias laid out as one row.
-/
import proofs.«182251_j56057913147664_1_alg».proof.Proof.Gen.KernelIdeal
import Idealize.ShloMosaic.PureOps.Ideal
import Idealize.ShloMosaic.Lib.ValueIdx

noncomputable section

open scoped BigOperators

namespace Cert.KernelIdeal.Spec

open Cert.KernelIdeal Cert.KernelIdeal.Gen Idealize.ShloMosaic Idealize.ShloMosaic.ValueIdx

section AnyValues
variable {F : FTy → Type} [FloatOps F]

/-- The rows of `x` the source indices name: an index below zero is first moved up by 100000. -/
def gathered (x : (⟨S100000x64, .f32⟩ : BufTy).Contents (Elt F)) (s : (⟨S1600000, .i32⟩ : BufTy).Contents (Elt F)) : (⟨S1600000x64, .f32⟩ : BufTy).Contents (Elt F) :=
  Host.gather gather_S100000x64_S1600000x1_S1600000x64_1_0_n_n_0_1_164 x
    (broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s))

/-- The per-destination mean of the messages: their sum per destination node over the number of messages there, a
    number below one replaced by one. -/
def meanOf (mm : (⟨S1600000x64, .f32⟩ : BufTy).Contents (Elt F)) (d : (⟨S1600000, .i32⟩ : BufTy).Contents (Elt F)) : (⟨S100000x64, .f32⟩ : BufTy).Contents (Elt F) :=
  Host.divf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 d) mm)
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 d)
            (broadcastInDim S1600000 ![] bcast_S_S1600000 (constant (F := F) S_ .f32 0x3F800000#32)))
          (broadcastInDim S100000 ![] bcast_S_S100000 (constant (F := F) S_ .f32 0x3F800000#32)))))

end AnyValues

/-- One message entry: row `P` of the gathered rows against the first weight block, plus row `P` of the edge features
    against the second, plus the bias. -/
def msgAt (g : FVec Ideal S1600000x64 .f32) (e : FVec Ideal S1600000x32 .f32) (w1 : FVec Ideal S64x64 .f32)
    (w2 : FVec Ideal S32x64 .f32) (b : FVec Ideal S1x64 .f32) (P : Fin 1600000) (q : Fin 64) : Ideal .f32 :=
  (∑ k : Fin 64, g (ix2 P k) * w1 (ix2 k q) + ∑ k : Fin 32, e (ix2 P k) * w2 (ix2 k q)) + b (ix2 (0 : Fin 1) q)

/-- All messages, as one array. -/
def msgs (g : FVec Ideal S1600000x64 .f32) (e : FVec Ideal S1600000x32 .f32) (w1 : FVec Ideal S64x64 .f32)
    (w2 : FVec Ideal S32x64 .f32) (b : FVec Ideal S1x64 .f32) : FVec Ideal S1600000x64 .f32 :=
  fun i => msgAt g e w1 w2 b ⟨(i 0).val, idx2_lt0 i⟩ ⟨(i 1).val, idx2_lt1 i⟩

/-- One updated entry: row `P` of the node features against the first weight block, plus row `P` of the aggregated
    messages against the second, plus the bias, cut off below at zero. -/
def updAt (x : FVec Ideal S100000x64 .f32) (h : FVec Ideal S100000x64 .f32) (w1 : FVec Ideal S64x64 .f32)
    (w2 : FVec Ideal S64x64 .f32) (b : FVec Ideal S1x64 .f32) (P : Fin 100000) (q : Fin 64) : Ideal .f32 :=
  max ((∑ k : Fin 64, x (ix2 P k) * w1 (ix2 k q) + ∑ k : Fin 64, h (ix2 P k) * w2 (ix2 k q)) + b (ix2 (0 : Fin 1) q))
    (Ideal.ofBits .f32 0x00000000#32)

/-- All updated entries, as one array. -/
def upd (x : FVec Ideal S100000x64 .f32) (h : FVec Ideal S100000x64 .f32) (w1 : FVec Ideal S64x64 .f32)
    (w2 : FVec Ideal S64x64 .f32) (b : FVec Ideal S1x64 .f32) : FVec Ideal S100000x64 .f32 :=
  fun i => updAt x h w1 w2 b ⟨(i 0).val, idx2_lt0 i⟩ ⟨(i 1).val, idx2_lt1 i⟩

/-- The whole program on its eight arguments. -/
def result (x0 : FVec Ideal S100000x64 .f32) (x1 : FVec Ideal S1600000x32 .f32)
    (x2 x3 : (⟨S1600000, .i32⟩ : BufTy).Contents (Elt Ideal)) (x4 : FVec Ideal S96x64 .f32) (x5 : FVec Ideal S64 .f32)
    (x6 : FVec Ideal S128x64 .f32) (x7 : FVec Ideal S64 .f32) : FVec Ideal S100000x64 .f32 :=
  upd x0
    (meanOf (F := Ideal)
      (msgs (gathered (F := Ideal) x0 x2) x1 (extractStridedSlice S64x64 ![0, 0] x4 slices_S96x64_S64x64_0_0)
        (extractStridedSlice S32x64 ![64, 0] x4 slices_S96x64_S32x64_64_0) (shapeCast S1x64 x5 shapeCasts_S64_S1x64))
      x3)
    (extractStridedSlice S64x64 ![0, 0] x6 slices_S128x64_S64x64_0_0)
    (extractStridedSlice S64x64 ![64, 0] x6 slices_S128x64_S64x64_64_0) (shapeCast S1x64 x7 shapeCasts_S64_S1x64)

end Cert.KernelIdeal.Spec

end
-- ==== Proof.Region0.lean ====
/-
  The message region's result array, for any contents `V` of the buffers at the region's entry.

  The grid has 100 points; point t works on rows 16000·t … 16000·t + 15999 of the gathered rows and of the edge features,
  with the two weight blocks and the bias row whole at every point, and writes rows 16000·t … of the result.
  So every entry (P, q) of the result is written by exactly the point P / 16000, and holds
      (Σ_{k<64} g[P,k]·w₁[k,q] + Σ_{k<32} e[P,k]·w₂[k,q]) + b[0,q].
-/
import proofs.«182251_j56057913147664_1_alg».proof.Proof.Gen.KernelIdeal.Frame
import proofs.«182251_j56057913147664_1_alg».proof.Proof.Bodies
import proofs.«182251_j56057913147664_1_alg».proof.Proof.Spec

set_option maxRecDepth 16384

noncomputable section

open scoped BigOperators

namespace Cert.KernelIdeal.Region0

open Cert.KernelIdeal Cert.KernelIdeal.Gen Cert.KernelIdeal.Spec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the row blocks move with the point, everything else stays at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s row block is row 16000·t + p of the array. -/
def rowOf (t : Fin cfg0.N) (p : Fin 16000) : Fin 1600000 :=
  ⟨t.val * 16000 + p.val, by have := t.isLt; have := p.isLt; show _ < 1600000; have h : t.val < 100 := t.isLt; omega⟩

theorem emb0 (t : Fin cfg0.N) (p : Fin 16000) (k : Fin 64) :
    ((cfg0.win 0).blk t).view.emb (ix2 p k) = ix2 (rowOf t p) k := by
  obtain ⟨e0, e1, -⟩ := index_facts t
  funext a; apply Fin.ext
  match a with
  | ⟨0, _⟩ => show win0_0.index t (0 : Fin 2) * 16000 + 1 * p.val = t.val * 16000 + p.val; omega
  | ⟨1, _⟩ => show win0_0.index t (1 : Fin 2) * 64 + 1 * k.val = k.val; omega

theorem emb1 (t : Fin cfg0.N) (p : Fin 16000) (k : Fin 32) :
    ((cfg0.win 1).blk t).view.emb (ix2 p k) = ix2 (rowOf t p) k := by
  obtain ⟨-, -, e0, e1, -⟩ := index_facts t
  funext a; apply Fin.ext
  match a with
  | ⟨0, _⟩ => show win0_1.index t (0 : Fin 2) * 16000 + 1 * p.val = t.val * 16000 + p.val; omega
  | ⟨1, _⟩ => show win0_1.index t (1 : Fin 2) * 32 + 1 * k.val = k.val; omega

theorem emb2 (t : Fin cfg0.N) (k : Fin 64) (q : Fin 64) :
    ((cfg0.win 2).blk t).view.emb (ix2 k q) = ix2 k q := by
  obtain ⟨-, -, -, -, e0, e1, -⟩ := index_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb3 (t : Fin cfg0.N) (k : Fin 32) (q : Fin 64) :
    ((cfg0.win 3).blk t).view.emb (ix2 k q) = ix2 k q := by
  obtain ⟨-, -, -, -, -, -, e0, e1, -⟩ := index_facts t
  funext a; apply Fin.ext
  match a with
  | ⟨0, _⟩ => show win0_3.index t (0 : Fin 2) * 32 + 1 * k.val = k.val; omega
  | ⟨1, _⟩ => show win0_3.index t (1 : Fin 2) * 64 + 1 * q.val = q.val; omega

theorem emb4 (t : Fin cfg0.N) (u : Fin 1) (q : Fin 64) :
    ((cfg0.win 4).blk t).view.emb (ix2 u q) = ix2 u q := by
  obtain ⟨-, -, -, -, -, -, -, -, e0, e1, -⟩ := index_facts t
  funext a; apply Fin.ext
  match a with
  | ⟨0, _⟩ => show win0_4.index t (0 : Fin 2) * 1 + 1 * u.val = u.val; omega
  | ⟨1, _⟩ => show win0_4.index t (1 : Fin 2) * 64 + 1 * q.val = q.val; omega

theorem emb5 (t : Fin cfg0.N) (p : Fin 16000) (q : Fin 64) :
    ((cfg0.win 5).blk t).view.emb (ix2 p q) = ix2 (rowOf t p) q := by
  obtain ⟨-, -, -, -, -, -, -, -, -, -, e0, e1⟩ := index_facts t
  funext a; apply Fin.ext
  match a with
  | ⟨0, _⟩ => show win0_5.index t (0 : Fin 2) * 16000 + 1 * p.val = t.val * 16000 + p.val; omega
  | ⟨1, _⟩ => show win0_5.index t (1 : Fin 2) * 64 + 1 * q.val = q.val; omega

/-- Each input block read at an entry is its array at the entry's place. -/
theorem read0 (c : Dev nD) (t : Fin cfg0.N) (p : Fin 16000) (k : Fin 64) :
    iblk0 V c 0 t (ix2 p k) = V c main_v6 (ix2 (rowOf t p) k) := by
  show V c main_v6 (((cfg0.win 0).blk t).view.emb (ix2 p k)) = _
  rw [emb0]
theorem read1 (c : Dev nD) (t : Fin cfg0.N) (p : Fin 16000) (k : Fin 32) :
    iblk0 V c 1 t (ix2 p k) = V c main_arg1 (ix2 (rowOf t p) k) := by
  show V c main_arg1 (((cfg0.win 1).blk t).view.emb (ix2 p k)) = _
  rw [emb1]
theorem read2 (c : Dev nD) (t : Fin cfg0.N) (k : Fin 64) (q : Fin 64) :
    iblk0 V c 2 t (ix2 k q) = V c main_v7 (ix2 k q) := by
  show V c main_v7 (((cfg0.win 2).blk t).view.emb (ix2 k q)) = _
  rw [emb2]
theorem read3 (c : Dev nD) (t : Fin cfg0.N) (k : Fin 32) (q : Fin 64) :
    iblk0 V c 3 t (ix2 k q) = V c main_v8 (ix2 k q) := by
  show V c main_v8 (((cfg0.win 3).blk t).view.emb (ix2 k q)) = _
  rw [emb3]
theorem read4 (c : Dev nD) (t : Fin cfg0.N) (u : Fin 1) (q : Fin 64) :
    iblk0 V c 4 t (ix2 u q) = V c main_v9 (ix2 u q) := by
  show V c main_v9 (((cfg0.win 4).blk t).view.emb (ix2 u q)) = _
  rw [emb4]

/-- What point `t` writes back is block `t` of the messages of the arrays as the region finds them. -/
theorem flushed_eq (c : Dev nD) (t : Fin cfg0.N) :
    (dat0 V c).flushed 5 t = ((cfg0.win 5).blk t).view.read (Elt Ideal)
      (msgs (V c main_v6) (V c main_arg1) (V c main_v7) (V c main_v8) (V c main_v9)) := by
  show (cfg0.win 5).cut (grid0.coords t) ((dat0 V c).after 5 t) = _
  rw [after0_5]
  unfold out0_5
  rw [View.canon_unit_zero zeros2]
  simp only [View.ld_unit_zero (S := S16000x64) zeros2, View.ld_unit_zero (S := S16000x32) zeros2,
    View.ld_unit_zero (S := S64x64) zeros2, View.ld_unit_zero (S := S32x64) zeros2, View.ld_unit_zero (S := S1x64) zeros2]
  funext j
  obtain ⟨p, q, rfl⟩ : ∃ (p : Fin 16000) (q : Fin 64), j = ix2 p q := ⟨j 0, j 1, eq_ix2 j⟩
  refine (Bodies.msg_apply (iblk0 V c 0 t) (iblk0 V c 1 t) (iblk0 V c 2 t) (iblk0 V c 3 t) (iblk0 V c 4 t) p q).trans ?_
  show _ = msgs (V c main_v6) (V c main_arg1) (V c main_v7) (V c main_v8) (V c main_v9) (((cfg0.win 5).blk t).view.emb (ix2 p q))
  rw [emb5]
  simp only [read0 V c t, read1 V c t, read2 V c t, read3 V c t, read4 V c t]
  rfl

/-- An index of the result array is in point `t`'s block iff each coordinate is in the block's range. -/
theorem mem_blk (t : Fin cfg0.N) (i : S1600000x64.Idx) :
    i ∈ ((cfg0.win 5).blk t).view.set ↔ ∀ a : Fin 2, win0_5.index t a * S16000x64.size a ≤ (i a).val
      ∧ (i a).val < win0_5.index t a * S16000x64.size a + S16000x64.size a := by
  show i ∈ ((View.whole main_v10).slice (win0_5.rect t)).set ↔ _
  rw [View.set_slice_whole, Rect.mem_set_unit]
  exact Iff.rfl

/-- Every entry of the result array is in the block of the point its row falls in. -/
theorem cover (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have ht : (i 0).val / 16000 < 100 := by omega
  refine ⟨⟨(i 0).val / 16000, ht⟩, flush0_5 _, ?_⟩
  obtain ⟨-, -, -, -, -, -, -, -, -, -, e0, e1⟩ := index_facts ⟨(i 0).val / 16000, ht⟩
  rw [mem_blk]
  intro a
  match a with
  | ⟨0, _⟩ =>
    show win0_5.index ⟨(i 0).val / 16000, ht⟩ (0 : Fin 2) * 16000 ≤ (i 0).val
      ∧ (i 0).val < win0_5.index ⟨(i 0).val / 16000, ht⟩ (0 : Fin 2) * 16000 + 16000
    rw [e0]; show (i 0).val / 16000 * 16000 ≤ (i 0).val ∧ (i 0).val < (i 0).val / 16000 * 16000 + 16000; omega
  | ⟨1, _⟩ =>
    show win0_5.index ⟨(i 0).val / 16000, ht⟩ (1 : Fin 2) * 64 ≤ (i 1).val
      ∧ (i 1).val < win0_5.index ⟨(i 0).val / 16000, ht⟩ (1 : Fin 2) * 64 + 64
    rw [e1]; omega

/-- THE RESULT ARRAY after the region: the messages of the arrays as the region finds them. -/
theorem final (c : Dev nD) :
    (dat0 V c).arrAt 5 cfg0.N = msgs (V c main_v6) (V c main_arg1) (V c main_v7) (V c main_v8) (V c main_v9) :=
  (dat0 V c).arrAt_eq_of_cover 5 _ (fun t _ => flushed_eq V c t) cover

end Cert.KernelIdeal.Region0

end
-- ==== Proof.Region1.lean ====
/-
  The update region's result array, for any contents `V` of the buffers at the region's entry.

  The grid has 10 points; point t works on rows 10000·t … 10000·t + 9999 of the node features and of the aggregated
  messages, with the two weight blocks and the bias row whole at every point, and writes rows 10000·t … of the result.
  Every entry (P, q) of the result is written by exactly the point P / 10000, and holds
      max((Σ_{k<64} x[P,k]·w₁[k,q] + Σ_{k<64} h[P,k]·w₂[k,q]) + b[0,q], 0).
-/
import proofs.«182251_j56057913147664_1_alg».proof.Proof.Gen.KernelIdeal.Frame
import proofs.«182251_j56057913147664_1_alg».proof.Proof.Bodies
import proofs.«182251_j56057913147664_1_alg».proof.Proof.Spec

set_option maxRecDepth 16384

noncomputable section

open scoped BigOperators

namespace Cert.KernelIdeal.Region1

open Cert.KernelIdeal Cert.KernelIdeal.Gen Cert.KernelIdeal.Spec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the row blocks move with the point, everything else stays at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s row block is row 10000·t + p of the array. -/
def rowOf (t : Fin cfg1.N) (p : Fin 10000) : Fin 100000 :=
  ⟨t.val * 10000 + p.val, by have := p.isLt; show _ < 100000; have h : t.val < 10 := t.isLt; omega⟩

theorem emb0 (t : Fin cfg1.N) (p : Fin 10000) (k : Fin 64) :
    ((cfg1.win 0).blk t).view.emb (ix2 p k) = ix2 (rowOf t p) k := by
  obtain ⟨e0, e1, -⟩ := index_facts t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

theorem emb1 (t : Fin cfg1.N) (p : Fin 10000) (k : Fin 64) :
    ((cfg1.win 1).blk t).view.emb (ix2 p k) = ix2 (rowOf t p) k := by
  obtain ⟨-, -, e0, e1, -⟩ := index_facts t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

theorem emb2 (t : Fin cfg1.N) (k : Fin 64) (q : Fin 64) :
    ((cfg1.win 2).blk t).view.emb (ix2 k q) = ix2 k q := by
  obtain ⟨-, -, -, -, e0, e1, -⟩ := index_facts t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

theorem emb3 (t : Fin cfg1.N) (k : Fin 64) (q : Fin 64) :
    ((cfg1.win 3).blk t).view.emb (ix2 k q) = ix2 k q := by
  obtain ⟨-, -, -, -, -, -, e0, e1, -⟩ := index_facts t
  funext a; apply Fin.ext
  match a with
  | ⟨0, _⟩ => show win1_3.index t (0 : Fin 2) * 64 + 1 * k.val = k.val; omega
  | ⟨1, _⟩ => show win1_3.index t (1 : Fin 2) * 64 + 1 * q.val = q.val; omega

theorem emb4 (t : Fin cfg1.N) (u : Fin 1) (q : Fin 64) :
    ((cfg1.win 4).blk t).view.emb (ix2 u q) = ix2 u q := by
  obtain ⟨-, -, -, -, -, -, -, -, e0, e1, -⟩ := index_facts t
  funext a; apply Fin.ext
  match a with
  | ⟨0, _⟩ => show win1_4.index t (0 : Fin 2) * 1 + 1 * u.val = u.val; omega
  | ⟨1, _⟩ => show win1_4.index t (1 : Fin 2) * 64 + 1 * q.val = q.val; omega

theorem emb5 (t : Fin cfg1.N) (p : Fin 10000) (q : Fin 64) :
    ((cfg1.win 5).blk t).view.emb (ix2 p q) = ix2 (rowOf t p) q := by
  obtain ⟨-, -, -, -, -, -, -, -, -, -, e0, e1⟩ := index_facts t
  funext a; apply Fin.ext
  match a with
  | ⟨0, _⟩ => show win1_5.index t (0 : Fin 2) * 10000 + 1 * p.val = t.val * 10000 + p.val; omega
  | ⟨1, _⟩ => show win1_5.index t (1 : Fin 2) * 64 + 1 * q.val = q.val; omega

/-- Each input block read at an entry is its array at the entry's place. -/
theorem read0 (c : Dev nD) (t : Fin cfg1.N) (p : Fin 10000) (k : Fin 64) :
    iblk1 V c 0 t (ix2 p k) = V c main_arg0 (ix2 (rowOf t p) k) := by
  show V c main_arg0 (((cfg1.win 0).blk t).view.emb (ix2 p k)) = _
  rw [emb0]
theorem read1 (c : Dev nD) (t : Fin cfg1.N) (p : Fin 10000) (k : Fin 64) :
    iblk1 V c 1 t (ix2 p k) = V c main_v22 (ix2 (rowOf t p) k) := by
  show V c main_v22 (((cfg1.win 1).blk t).view.emb (ix2 p k)) = _
  rw [emb1]
theorem read2 (c : Dev nD) (t : Fin cfg1.N) (k : Fin 64) (q : Fin 64) :
    iblk1 V c 2 t (ix2 k q) = V c main_v23 (ix2 k q) := by
  show V c main_v23 (((cfg1.win 2).blk t).view.emb (ix2 k q)) = _
  rw [emb2]
theorem read3 (c : Dev nD) (t : Fin cfg1.N) (k : Fin 64) (q : Fin 64) :
    iblk1 V c 3 t (ix2 k q) = V c main_v24 (ix2 k q) := by
  show V c main_v24 (((cfg1.win 3).blk t).view.emb (ix2 k q)) = _
  rw [emb3]
theorem read4 (c : Dev nD) (t : Fin cfg1.N) (u : Fin 1) (q : Fin 64) :
    iblk1 V c 4 t (ix2 u q) = V c main_v25 (ix2 u q) := by
  show V c main_v25 (((cfg1.win 4).blk t).view.emb (ix2 u q)) = _
  rw [emb4]

/-- What point `t` writes back is block `t` of the updated entries of the arrays as the region finds them. -/
theorem flushed_eq (c : Dev nD) (t : Fin cfg1.N) :
    (dat1 V c).flushed 5 t = ((cfg1.win 5).blk t).view.read (Elt Ideal)
      (upd (V c main_arg0) (V c main_v22) (V c main_v23) (V c main_v24) (V c main_v25)) := by
  show (cfg1.win 5).cut (grid1.coords t) ((dat1 V c).after 5 t) = _
  rw [after1_5]
  unfold out1_5
  rw [View.canon_unit_zero zeros2]
  simp only [View.ld_unit_zero (S := S10000x64) zeros2, View.ld_unit_zero (S := S64x64) zeros2,
    View.ld_unit_zero (S := S1x64) zeros2]
  funext j
  obtain ⟨p, q, rfl⟩ : ∃ (p : Fin 10000) (q : Fin 64), j = ix2 p q := ⟨j 0, j 1, eq_ix2 j⟩
  refine (Bodies.apply_apply (iblk1 V c 0 t) (iblk1 V c 1 t) (iblk1 V c 2 t) (iblk1 V c 3 t) (iblk1 V c 4 t) p q).trans ?_
  show _ = upd (V c main_arg0) (V c main_v22) (V c main_v23) (V c main_v24) (V c main_v25) (((cfg1.win 5).blk t).view.emb (ix2 p q))
  rw [emb5]
  simp only [read0 V c t, read1 V c t, read2 V c t, read3 V c t, read4 V c t]
  rfl

/-- An index of the result array is in point `t`'s block iff each coordinate is in the block's range. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v26).slice (win1_5.rect t)).set ↔ _
  rw [View.set_slice_whole, Rect.mem_set_unit]
  exact Iff.rfl

/-- Every entry of the result array is in the block of the point its row falls in. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 10000 < 10 := by omega
  refine ⟨⟨(i 0).val / 10000, ht⟩, flush1_5 _, ?_⟩
  obtain ⟨-, -, -, -, -, -, -, -, -, -, e0, e1⟩ := index_facts ⟨(i 0).val / 10000, ht⟩
  rw [mem_blk]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 64 ≤ (i 1).val
      ∧ (i 1).val < win1_5.index ⟨(i 0).val / 10000, ht⟩ (1 : Fin 2) * 64 + 64
    rw [e1]; omega

/-- THE RESULT ARRAY after the region: the updated entries of the arrays as the region finds them. -/
theorem final (c : Dev nD) :
    (dat1 V c).arrAt 5 cfg1.N = upd (V c main_arg0) (V c main_v22) (V c main_v23) (V c main_v24) (V c main_v25) :=
  (dat1 V c).arrAt_eq_of_cover 5 _ (fun t _ => flushed_eq V c t) cover

end Cert.KernelIdeal.Region1

end
-- ==== Proof.HostValues.lean ====
/-
  The host operations around the two regions, read at the buffers the regions take.

  Before the message region: the source indices, with a negative index moved up by the number of nodes, gather rows of
  the node features; the message weights are cut into their first 64 rows and their last 32; the bias becomes one row.
  Between the regions: the messages are added up per destination node, the number of messages per destination is
  counted the same way, and the sums are divided by the counts (a count below one replaced by one); the update weights
  are cut into two blocks of 64 rows and the update bias becomes one row. No operation writes an argument.
-/
import proofs.«182251_j56057913147664_1_alg».proof.Proof.Gen.KernelIdeal.Frame
import Idealize.ShloMosaic.Lib.StableHlo.Run
import proofs.«182251_j56057913147664_1_alg».proof.Proof.Spec

set_option maxRecDepth 16384

noncomputable section

namespace Cert.KernelIdeal.HostValues

open Cert.KernelIdeal Cert.KernelIdeal.Gen Cert.KernelIdeal.Spec Idealize.ShloMosaic Idealize.ShloMosaic.TcCoe Idealize.SL.Sem
open Idealize.ShloMosaic.StableHlo

variable {F : FTy → Type} [FloatOps F]

variable (m : (ℓ : Loc nD τ sig) → Buf (Elt F) ℓ) (ρ : Dev nD → PrngReg)

/-! ## At the message region's entry -/

theorem V1_v6 (c : Dev nD) : V1 m ρ c main_v6
    = gathered (m ((c : Thread nD τ).loc main_arg0)) (m ((c : Thread nD τ).loc main_arg2)) := by
  show StableHlo.after hostOps0 (W0 m ρ c) (Proc.devRef .tc main_v6) = _
  after_results; rfl

theorem V1_arg1 (c : Dev nD) : V1 m ρ c main_arg1 = m ((c : Thread nD τ).loc main_arg1) := by
  show StableHlo.after hostOps0 (W0 m ρ c) (Proc.devRef .tc main_arg1) = _
  after_results

theorem V1_v7 (c : Dev nD) : V1 m ρ c main_v7
    = extractStridedSlice S64x64 ![0, 0] (m ((c : Thread nD τ).loc main_arg4)) slices_S96x64_S64x64_0_0 := by
  show StableHlo.after hostOps0 (W0 m ρ c) (Proc.devRef .tc main_v7) = _
  after_results

theorem V1_v8 (c : Dev nD) : V1 m ρ c main_v8
    = extractStridedSlice S32x64 ![64, 0] (m ((c : Thread nD τ).loc main_arg4)) slices_S96x64_S32x64_64_0 := by
  show StableHlo.after hostOps0 (W0 m ρ c) (Proc.devRef .tc main_v8) = _
  after_results

theorem V1_v9 (c : Dev nD) : V1 m ρ c main_v9
    = shapeCast S1x64 (m ((c : Thread nD τ).loc main_arg5)) shapeCasts_S64_S1x64 := by
  show StableHlo.after hostOps0 (W0 m ρ c) (Proc.devRef .tc main_v9) = _
  after_results; rfl

/-! ## At the message region's exit -/

theorem W2_v10 (c : Dev nD) : W2 m ρ c (Proc.devRef .tc main_v10) = (dat0 (V1 m ρ) c).arrAt 5 cfg0.N :=
  W2_arr m ρ c 5

theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-! ## At the update region's entry -/

theorem V3_arg0 (c : Dev nD) : V3 m ρ c main_arg0 = m ((c : Thread nD τ).loc main_arg0) := by
  show StableHlo.after hostOps1 (W2 m ρ c) (Proc.devRef .tc main_arg0) = _
  after_results; exact W2_arg0 m ρ c

theorem V3_v22 (c : Dev nD) : V3 m ρ c main_v22
    = meanOf ((dat0 (V1 m ρ) c).arrAt 5 cfg0.N) (m ((c : Thread nD τ).loc main_arg3)) := by
  show StableHlo.after hostOps1 (W2 m ρ c) (Proc.devRef .tc main_v22) = _
  after_results
  rw [W2_v10 m ρ c, W2_arg3 m ρ c]
  rfl

theorem V3_v23 (c : Dev nD) : V3 m ρ c main_v23
    = extractStridedSlice S64x64 ![0, 0] (m ((c : Thread nD τ).loc main_arg6)) slices_S128x64_S64x64_0_0 := by
  show StableHlo.after hostOps1 (W2 m ρ c) (Proc.devRef .tc main_v23) = _
  after_results
  rw [W2_arg6 m ρ c]

theorem V3_v24 (c : Dev nD) : V3 m ρ c main_v24
    = extractStridedSlice S64x64 ![64, 0] (m ((c : Thread nD τ).loc main_arg6)) slices_S128x64_S64x64_64_0 := by
  show StableHlo.after hostOps1 (W2 m ρ c) (Proc.devRef .tc main_v24) = _
  after_results
  rw [W2_arg6 m ρ c]

theorem V3_v25 (c : Dev nD) : V3 m ρ c main_v25
    = shapeCast S1x64 (m ((c : Thread nD τ).loc main_arg7)) shapeCasts_S64_S1x64 := by
  show StableHlo.after hostOps1 (W2 m ρ c) (Proc.devRef .tc main_v25) = _
  after_results
  rw [W2_arg7 m ρ c]
  rfl

end Cert.KernelIdeal.HostValues

end
-- ==== Proof.KernelValue.lean ====
/-
  The idealized kernel's run with its result named: the result array ends at `Spec.result` of the argument arrays.

  The result buffer's final contents are what the update region leaves in its output array; that is the update of the
  arrays the region finds; those are the node features as launched, the per-destination mean of what the message
  region left, and the cut weights and bias row; what the message region left is the messages of the arrays it found,
  which are the gathered rows, the edge features as launched, and the cut weights and bias row.
-/
import proofs.«182251_j56057913147664_1_alg».proof.Proof.Region0
import proofs.«182251_j56057913147664_1_alg».proof.Proof.Region1
import proofs.«182251_j56057913147664_1_alg».proof.Proof.HostValues
import proofs.«182251_j56057913147664_1_alg».proof.Proof.KernelRun

set_option maxRecDepth 16384

noncomputable section

namespace Cert.KernelIdeal.Whole

open Cert.KernelIdeal Cert.KernelIdeal.Gen Cert.KernelIdeal.Spec Cert.KernelIdeal.HostValues
open Idealize.ShloMosaic Idealize.ShloMosaic.TcCoe Idealize.SL.Sem

variable (m : (ℓ : Loc nD τ sig) → Buf (Elt Ideal) ℓ) (ρ : Dev nD → PrngReg)

/-- The last boundary's contents at the result buffer, as a function of the launch memory. -/
theorem result_eq (c : Dev nD) : W4 m ρ c (Proc.devRef .tc main_v26)
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (W4_arr m ρ c 5).trans ?_
  rw [Region1.final (V3 m ρ) c, V3_arg0 m ρ c, V3_v22 m ρ c, V3_v23 m ρ c, V3_v24 m ρ c, V3_v25 m ρ c,
    Region0.final (V1 m ρ) c, V1_v6 m ρ c, V1_arg1 m ρ c, V1_v7 m ρ c, V1_v8 m ρ c, V1_v9 m ρ c]
  rfl

/-- Every weakly fair execution of the idealized kernel terminates, nothing faulting, with the result array at
    `result` of the argument arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v26)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨(h c).1.trans (result_eq m ρ c), (h c).2⟩) (run_named (F := Ideal) m ρ)

end Cert.KernelIdeal.Whole

end
-- ==== Proof.LibHostDot.lean ====
/-
  The host's matrix product and a concatenation along the contracted axis, read at an entry at the ideal values.

  `hostDot_10_apply`: for any dimension numbers record whose axis lists are the stated ones (a printed record
  satisfies each hypothesis by `rfl`), the host's product of an `M × K` by a `K × N` operand, the left contracted on
  its last axis and the right on its first, with no batch axis, is at entry (a, b) the sum over the contracted
  coordinate `c` of the left entry (a, c) times the right entry (c, b).
  `concat_cols_left` / `concat_cols_right`: two matrices of the same number of rows put side by side read, at a
  column of the first, the first, and at a column past it, the second at the column less the first's width.
  `sum_split`: a sum over `K₁ + K₂` coordinates is the sum over the first `K₁` plus the sum over the last `K₂`.
-/
import Idealize.ShloMosaic.Lib.ValueIdx
import Idealize.ShloMosaic.Lib.Pipeline.Value
import Idealize.ShloMosaic.PureOps.Ideal.Laws
import proofs.«182251_j56057913147664_1_alg».proof.Proof.LibDot

noncomputable section

open scoped BigOperators

namespace Cert.LibHostDot

open Idealize.ShloMosaic Idealize.ShloMosaic.ValueIdx

/-- Rows by columns on the host: an `M × K` by a `K × N` operand, the left contracted on its last axis and the right
    on its first. -/
theorem hostDot_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single A B (ix2 a b) = _
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

section Concat
variable {α : Type}

/-- Two matrices side by side, read at a column of the first. -/
theorem concat_cols_left {R K₁ K₂ K : Nat} (x₁ : (⟨2, ![R, K₁]⟩ : Shape).Idx → α) (x₂ : (⟨2, ![R, K₂]⟩ : Shape).Idx → α)
    (h : Shape.Concatenates [⟨2, ![R, K₁]⟩, ⟨2, ![R, K₂]⟩] ⟨2, ![R, K]⟩ (1 : Fin 2))
    (r : Fin R) (k : Fin K) (k₁ : Fin K₁) (hk : k₁.val = k.val) :
    concatenate ⟨2, ![R, K]⟩ (1 : Fin 2) [⟨⟨2, ![R, K₁]⟩, x₁⟩, ⟨⟨2, ![R, K₂]⟩, x₂⟩] h (ix2 r k) = x₁ (ix2 r k₁) :=
by
  refine concatenate_pair_apply_left (t := ⟨2, ![R, K]⟩) (1 : Fin 2) x₁ x₂ h (ix2 r k) rfl (ix2 r k₁) ?_
  intro b
  match b with
  | ⟨0, _⟩ => rfl
  | ⟨1, _⟩ => exact hk

/-- Two matrices side by side, read at a column past the first. -/
theorem concat_cols_right {R K₁ K₂ K : Nat} (x₁ : (⟨2, ![R, K₁]⟩ : Shape).Idx → α) (x₂ : (⟨2, ![R, K₂]⟩ : Shape).Idx → α)
    (h : Shape.Concatenates [⟨2, ![R, K₁]⟩, ⟨2, ![R, K₂]⟩] ⟨2, ![R, K]⟩ (1 : Fin 2))
    (r : Fin R) (k : Fin K) (k₂ : Fin K₂) (hk : k₂.val + K₁ = k.val) :
    concatenate ⟨2, ![R, K]⟩ (1 : Fin 2) [⟨⟨2, ![R, K₁]⟩, x₁⟩, ⟨⟨2, ![R, K₂]⟩, x₂⟩] h (ix2 r k) = x₂ (ix2 r k₂) :=
by
  refine concatenate_pair_apply_right (t := ⟨2, ![R, K]⟩) (1 : Fin 2) x₁ x₂ h (ix2 r k) rfl rfl (ix2 r k₂) ?_ ?_
  · intro b hb
    match b with
    | ⟨0, _⟩ => rfl
    | ⟨1, _⟩ => exact absurd rfl hb
  · exact hk

end Concat

/-- A sum over `K₁ + K₂` coordinates, cut after the first `K₁`. -/
theorem sum_split {M : Type} [AddCommMonoid M] (K₁ K₂ : Nat) (f : Fin (K₁ + K₂) → M) :
    ∑ k : Fin (K₁ + K₂), f k
      = ∑ k : Fin K₁, f ⟨k.val, by have := k.isLt; omega⟩ + ∑ k : Fin K₂, f ⟨K₁ + k.val, by have := k.isLt; omega⟩ := by
  rw [Fin.sum_univ_add]
  rfl

end Cert.LibHostDot

end
-- ==== Proof.RefBridge.lean ====
/-
  The reference computes the same function of the eight arguments.

  The reference multiplies the gathered rows and the edge features, put side by side, by the whole 96-row weight matrix:
  at entry (P, q) that is a sum over 96 coordinates, which splits after the first 64 into the product of the gathered
  rows with the first 64 weight rows plus the product of the edge features with the last 32 — the two products the
  kernel adds. The bias laid along every row reads the same entry either way. The per-destination mean is the same
  chain of operations on both sides. The update is the same splitting of a sum over 128 coordinates after the first
  64, and the reference's cut-off at zero is the kernel's maximum with zero. Only associativity and commutativity of
  the sum are used, so no entry needs to be finite.
-/
import proofs.«182251_j56057913147664_1_alg».proof.Proof.Spec
import proofs.«182251_j56057913147664_1_alg».proof.Proof.LibHostDot
import proofs.«182251_j56057913147664_1_alg».proof.Proof.Gen.ReferenceIdeal.Read
import Idealize.ShloMosaic.Lib.ValueLayout
import Idealize.ShloMosaic.Lib.KernelVsHost

noncomputable section

open scoped BigOperators

namespace Cert.Bridge

open Cert.ReferenceIdeal Cert.ReferenceIdeal.Gen Cert.ReferenceIdeal.Read Idealize.ShloMosaic Idealize.ShloMosaic.ValueIdx

/-- The side-by-side product at an entry: the first 64 coordinates read the left matrix, the last 32 the right. -/
theorem msg_dot_apply (g : FVec Ideal S1600000x64 .f32) (e : FVec Ideal S1600000x32 .f32) (W : FVec Ideal S96x64 .f32)
    (P : Fin 1600000) (q : Fin 64) :
    Host.dotGeneral (F := Ideal) dot_S1600000x96_S96x64_S1600000x64_1_0_0_1_n_n none
        (concatenate S1600000x96 1 [⟨S1600000x64, g⟩, ⟨S1600000x32, e⟩] concatenates_S1600000x64_S1600000x32_S1600000x96_d1) W (ix2 P q)
      = ∑ k : Fin 64, g (ix2 P k) * W (ix2 (⟨k.val, by have := k.isLt; omega⟩ : Fin 96) q)
        + ∑ k : Fin 32, e (ix2 P k) * W (ix2 (⟨64 + k.val, by have := k.isLt; omega⟩ : Fin 96) q) := by
  rw [Cert.LibHostDot.hostDot_10_apply _ rfl rfl rfl rfl rfl rfl]
  refine (Cert.LibHostDot.sum_split 64 32 _).trans ?_
  congr 1
  · refine Finset.sum_congr rfl fun k _ => ?_
    rw [Cert.LibHostDot.concat_cols_left (K := 96) g e _ P ⟨k.val, by have := k.isLt; omega⟩ k rfl]
  · refine Finset.sum_congr rfl fun k _ => ?_
    rw [Cert.LibHostDot.concat_cols_right (K := 96) g e _ P ⟨64 + k.val, by have := k.isLt; omega⟩ k (Nat.add_comm _ _)]

/-- The same for the update: the first 64 coordinates read the node features, the last 64 the aggregated messages. -/
theorem upd_dot_apply (x : FVec Ideal S100000x64 .f32) (h : FVec Ideal S100000x64 .f32) (W : FVec Ideal S128x64 .f32)
    (P : Fin 100000) (q : Fin 64) :
    Host.dotGeneral (F := Ideal) dot_S100000x128_S128x64_S100000x64_1_0_0_1_n_n none
        (concatenate S100000x128 1 [⟨S100000x64, x⟩, ⟨S100000x64, h⟩] concatenates_S100000x64_S100000x64_S100000x128_d1) W (ix2 P q)
      = ∑ k : Fin 64, x (ix2 P k) * W (ix2 (⟨k.val, by have := k.isLt; omega⟩ : Fin 128) q)
        + ∑ k : Fin 64, h (ix2 P k) * W (ix2 (⟨64 + k.val, by have := k.isLt; omega⟩ : Fin 128) q) := by
  rw [Cert.LibHostDot.hostDot_10_apply _ rfl rfl rfl rfl rfl rfl]
  refine (Cert.LibHostDot.sum_split 64 64 _).trans ?_
  congr 1
  · refine Finset.sum_congr rfl fun k _ => ?_
    rw [Cert.LibHostDot.concat_cols_left (K := 128) x h _ P ⟨k.val, by have := k.isLt; omega⟩ k rfl]
  · refine Finset.sum_congr rfl fun k _ => ?_
    rw [Cert.LibHostDot.concat_cols_right (K := 128) x h _ P ⟨64 + k.val, by have := k.isLt; omega⟩ k (Nat.add_comm _ _)]

/-- A vector laid along every row, the host's way, reads the vector at the column. -/
theorem bias_rows_apply {R : Nat} (b : FVec Ideal S64 .f32)
    (h1 : S64.BroadcastsInDim S1x64 ![1]) (h2 : S1x64.BroadcastsInDim ⟨2, ![R, 64]⟩ ![0, 1]) (P : Fin R) (q : Fin 64) :
    broadcastInDim ⟨2, ![R, 64]⟩ ![0, 1] h2 (broadcastInDim S1x64 ![1] h1 b) (ix2 P q) = b (ix1 q) := by
  rw [broadcastInDim_oneRow_apply h2 _ P q]
  refine broadcastInDim_apply ![1] h1 b (ix2 (0 : Fin 1) q) (ix1 q) fun a => ?_
  match a with
  | ⟨0, _⟩ => show q.val = if (64 : Nat) = 1 then 0 else q.val; rw [if_neg (by decide)]

/-- The gathered rows are the same array on both sides. -/
theorem gathered_eq (x0 : FVec Ideal S100000x64 .f32) (x2 : (⟨S1600000, .i32⟩ : BufTy).Contents (Elt Ideal)) :
    val_main_v6 (F := Ideal) x0 x2 = Cert.KernelIdeal.Spec.gathered (F := Ideal) x0 x2 := rfl

/-- The reference's messages are the kernel's. -/
theorem msgs_eq (x0 : FVec Ideal S100000x64 .f32) (x1 : FVec Ideal S1600000x32 .f32)
    (x2 : (⟨S1600000, .i32⟩ : BufTy).Contents (Elt Ideal)) (x4 : FVec Ideal S96x64 .f32) (x5 : FVec Ideal S64 .f32) :
    val_main_v11 (F := Ideal) x0 x1 x2 x4 x5
      = Cert.KernelIdeal.Spec.msgs (Cert.KernelIdeal.Spec.gathered (F := Ideal) x0 x2) x1
          (extractStridedSlice Cert.KernelIdeal.S64x64 ![0, 0] x4 Cert.KernelIdeal.Gen.slices_S96x64_S64x64_0_0)
          (extractStridedSlice Cert.KernelIdeal.S32x64 ![64, 0] x4 Cert.KernelIdeal.Gen.slices_S96x64_S32x64_64_0)
          (shapeCast Cert.KernelIdeal.S1x64 x5 Cert.KernelIdeal.Gen.shapeCasts_S64_S1x64) := by
  funext i
  obtain ⟨P, q, rfl⟩ : ∃ (P : Fin 1600000) (q : Fin 64), i = ix2 P q := ⟨i 0, i 1, eq_ix2 i⟩
  rw [val_main_v11_apply]
  unfold val_main_v8 val_main_v7 val_main_v10 val_main_v9
  rw [gathered_eq, msg_dot_apply, bias_rows_apply]
  show _ = Cert.KernelIdeal.Spec.msgAt _ _ _ _ _ P q
  unfold Cert.KernelIdeal.Spec.msgAt
  rw [shapeCast_a_1a_apply]
  congr 1
  congr 1
  · refine Finset.sum_congr rfl fun k _ => ?_
    rw [slice2_axis0_apply 0 x4 _ k q ⟨k.val, by have := k.isLt; omega⟩ (Nat.zero_add _).symm]
  · refine Finset.sum_congr rfl fun k _ => ?_
    rw [slice2_axis0_apply 64 x4 _ k q ⟨64 + k.val, by have := k.isLt; omega⟩ rfl]

/-- The per-destination mean is the same chain of operations on both sides. -/
theorem mean_eq (x0 : FVec Ideal S100000x64 .f32) (x1 : FVec Ideal S1600000x32 .f32)
    (x2 x3 : (⟨S1600000, .i32⟩ : BufTy).Contents (Elt Ideal)) (x4 : FVec Ideal S96x64 .f32) (x5 : FVec Ideal S64 .f32) :
    val_main_v23 (F := Ideal) x0 x1 x2 x3 x4 x5
      = Cert.KernelIdeal.Spec.meanOf (F := Ideal) (val_main_v11 (F := Ideal) x0 x1 x2 x4 x5) x3 := rfl

/-- The reference's update of any aggregated messages is the kernel's. -/
theorem upd_eq (x0 : FVec Ideal S100000x64 .f32) (h : FVec Ideal S100000x64 .f32) (x6 : FVec Ideal S128x64 .f32)
    (x7 : FVec Ideal S64 .f32) :
    maximumf (addf (Host.dotGeneral (F := Ideal) dot_S100000x128_S128x64_S100000x64_1_0_0_1_n_n none
        (concatenate S100000x128 1 [⟨S100000x64, x0⟩, ⟨S100000x64, h⟩] concatenates_S100000x64_S100000x64_S100000x128_d1) x6)
        (val_main_v27 (F := Ideal) x7)) (val_main_call0_v0 (F := Ideal))
      = Cert.KernelIdeal.Spec.upd x0 h
          (extractStridedSlice Cert.KernelIdeal.S64x64 ![0, 0] x6 Cert.KernelIdeal.Gen.slices_S128x64_S64x64_0_0)
          (extractStridedSlice Cert.KernelIdeal.S64x64 ![64, 0] x6 Cert.KernelIdeal.Gen.slices_S128x64_S64x64_64_0)
          (shapeCast Cert.KernelIdeal.S1x64 x7 Cert.KernelIdeal.Gen.shapeCasts_S64_S1x64) := by
  funext i
  obtain ⟨P, q, rfl⟩ : ∃ (P : Fin 100000) (q : Fin 64), i = ix2 P q := ⟨i 0, i 1, eq_ix2 i⟩
  rw [maximumf_apply, addf_apply, upd_dot_apply]
  unfold val_main_v27 val_main_v26
  rw [bias_rows_apply]
  show _ = Cert.KernelIdeal.Spec.updAt _ _ _ _ _ P q
  unfold Cert.KernelIdeal.Spec.updAt
  rw [shapeCast_a_1a_apply]
  congr 1
  congr 1
  congr 1
  · refine Finset.sum_congr rfl fun k _ => ?_
    rw [slice2_axis0_apply 0 x6 _ k q ⟨k.val, by have := k.isLt; omega⟩ (Nat.zero_add _).symm]
  · refine Finset.sum_congr rfl fun k _ => ?_
    rw [slice2_axis0_apply 64 x6 _ k q ⟨64 + k.val, by have := k.isLt; omega⟩ rfl]

/-- THE REFERENCE'S RESULT is the same function of the eight arguments as the kernel's. -/
theorem result_eq (x0 : FVec Ideal S100000x64 .f32) (x1 : FVec Ideal S1600000x32 .f32)
    (x2 x3 : (⟨S1600000, .i32⟩ : BufTy).Contents (Elt Ideal)) (x4 : FVec Ideal S96x64 .f32) (x5 : FVec Ideal S64 .f32)
    (x6 : FVec Ideal S128x64 .f32) (x7 : FVec Ideal S64 .f32) :
    val_main_v29 (F := Ideal) x0 x1 x2 x3 x4 x5 x6 x7 = Cert.KernelIdeal.Spec.result x0 x1 x2 x3 x4 x5 x6 x7 := by
  unfold val_main_v29 val_main_v28 val_main_v25 val_main_v24 Cert.KernelIdeal.Spec.result
  rw [mean_eq, msgs_eq, upd_eq]

end Cert.Bridge

end
-- ==== Proof.lean ====
/-
  A graph layer: messages along 1.6 million edges, their mean per destination node, and a node update.

  Both programs compute, from node features x (100000 × 64), edge features e (1600000 × 32), source and destination
  indices, message weights W (96 × 64) with bias b, and update weights U (128 × 64) with bias d:
    message  m[E, q] = Σ_{k<64} x[src E, k]·W[k, q] + Σ_{k<32} e[E, k]·W[64 + k, q] + b[q];
    mean     h[n, q] = (Σ_{E : dst E = n} m[E, q]) / max(#{E : dst E = n}, 1);
    result   r[n, q] = max(Σ_{k<64} x[n, k]·U[k, q] + Σ_{k<64} h[n, k]·U[64 + k, q] + d[q], 0).
  The kernel computes the messages in 100 row blocks of 16000 edges and the result in 10 row blocks of 10000 nodes,
  each as two matrix products against the two row blocks of the weights; the reference multiplies the operands put
  side by side by the whole weight matrix. On the extended reals the two agree entry by entry: a sum over 96 (or 128)
  coordinates is the sum over the first 64 plus the sum over the rest, the changes of float format are the
  identity, and the gather, the per-destination sums and the division are the same operations on both sides. No
  distributive law is used, so the inputs' finiteness is not needed.

  The three frames: the two kernels' are the generated ones; the reference's is its generated run with the result
  dropped. Nothing was rewritten by the idealization, so the fourth claim is trivial. The fifth pairs the idealized
  kernel's run, its result array named as one function of the arguments, with the reference's run, whose term is the
  same function.
-/
import proofs.«182251_j56057913147664_1_alg».proof.Defs
import proofs.«182251_j56057913147664_1_alg».proof.Proof.Gen.Kernel
import proofs.«182251_j56057913147664_1_alg».proof.Proof.Gen.Kernel.Frame
import proofs.«182251_j56057913147664_1_alg».proof.Proof.Gen.KernelIdeal
import proofs.«182251_j56057913147664_1_alg».proof.Proof.Gen.KernelIdeal.Frame
import proofs.«182251_j56057913147664_1_alg».proof.Proof.Gen.ReferenceIdeal
import proofs.«182251_j56057913147664_1_alg».proof.Proof.Gen.Pre_finite_inputs
import proofs.«182251_j56057913147664_1_alg».proof.Proof.Gen.ReferenceIdeal.Run
import proofs.«182251_j56057913147664_1_alg».proof.Proof.Gen.ReferenceIdeal.Read
import proofs.«182251_j56057913147664_1_alg».proof.Proof.KernelValue
import proofs.«182251_j56057913147664_1_alg».proof.Proof.RefBridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at the same function of the
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v29_eq, Cert.Bridge.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
